-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32768 : Shape := ⟨2, ![2048, 32768]⟩
abbrev S32768 : Shape := ⟨1, ![32768]⟩
abbrev S32768x16 : Shape := ⟨2, ![32768, 16]⟩
abbrev S_ : Shape := ⟨0, ![]⟩

class Facts : Prop where
  bcast_S_S2048x32768 : S_.BroadcastsInDim S2048x32768 (![] : Fin 0 → Fin S2048x32768.rank)
  reducesTo_S2048x32768_S_d0_1 : S2048x32768.ReducesTo [0, 1] S_
  h_S_ : 0 < S_.numel
  bcast_S_S32768x16 : S_.BroadcastsInDim S32768x16 (![] : Fin 0 → Fin S32768x16.rank)
  reducesTo_S32768x16_S_d0_1 : S32768x16.ReducesTo [0, 1] S_
  bcast_S_S32768 : S_.BroadcastsInDim S32768 (![] : Fin 0 → Fin S32768.rank)
  reducesTo_S32768_S_d0 : S32768.ReducesTo [0] S_

variable [Facts]

def fn_part1 {F : FTy → Type} [FloatOps F] (main_arg2 : IVec S32768 32) (main_v15 : IVec S_ 1) (main_c_5 : IVec S_ 32) : IVec S_ 1 :=
  let main_v16 : IVec S32768 32 := broadcastInDim S32768 ![] bcast_S_S32768 main_c_5
  let main_v17 : IVec S32768 1 := cmpi .sge main_arg2 main_v16
  let main_c_6 : IVec S_ 32 := constantI S_ 32 32768#32
  let main_v18 : IVec S32768 32 := broadcastInDim S32768 ![] bcast_S_S32768 main_c_6
  let main_v19 : IVec S32768 1 := cmpi .slt main_arg2 main_v18
  let main_v20 : IVec S32768 1 := andi main_v17 main_v19
  let main_c_7 : IVec S_ 1 := constantI S_ 1 1#1
  let main_v21 : IVec S_ 1 := (fun x v => Host.reduce IntOp.andi x v reducesTo_S32768_S_d0 h_S_) main_v20 main_c_7
  let main_v22 : IVec S_ 1 := andi main_v15 main_v21
  main_v22

def fn {F : FTy → Type} [FloatOps F] (main_arg0 : FVec F S2048x32768 .f32) (main_arg1 : IVec S32768 32) (main_arg2 : IVec S32768 32) (main_arg3 : FVec F S32768x16 .f32) : IVec S_ 1 :=
  let main_v0 : FVec F S2048x32768 .f32 := Host.absf main_arg0
  let main_cst : FVec F S_ .f32 := constant S_ .f32 0x7F800000#32
  let main_v1 : FVec F S2048x32768 .f32 := broadcastInDim S2048x32768 ![] bcast_S_S2048x32768 main_cst
  let main_v2 : IVec S2048x32768 1 := cmpf .olt main_v0 main_v1
  let main_c : IVec S_ 1 := constantI S_ 1 1#1
  let main_v3 : IVec S_ 1 := (fun x v => Host.reduce IntOp.andi x v reducesTo_S2048x32768_S_d0_1 h_S_) main_v2 main_c
  let main_v4 : FVec F S32768x16 .f32 := Host.absf main_arg3
  let main_cst_0 : FVec F S_ .f32 := constant S_ .f32 0x7F800000#32
  let main_v5 : FVec F S32768x16 .f32 := broadcastInDim S32768x16 ![] bcast_S_S32768x16 main_cst_0
  let main_v6 : IVec S32768x16 1 := cmpf .olt main_v4 main_v5
  let main_c_1 : IVec S_ 1 := constantI S_ 1 1#1
  let main_v7 : IVec S_ 1 := (fun x v => Host.reduce IntOp.andi x v reducesTo_S32768x16_S_d0_1 h_S_) main_v6 main_c_1
  let main_v8 : IVec S_ 1 := andi main_v3 main_v7
  let main_c_2 : IVec S_ 32 := constantI S_ 32 4294934528#32
  let main_v9 : IVec S32768 32 := broadcastInDim S32768 ![] bcast_S_S32768 main_c_2
  let main_v10 : IVec S32768 1 := cmpi .sge main_arg1 main_v9
  let main_c_3 : IVec S_ 32 := constantI S_ 32 32768#32
  let main_v11 : IVec S32768 32 := broadcastInDim S32768 ![] bcast_S_S32768 main_c_3
  let main_v12 : IVec S32768 1 := cmpi .slt main_arg1 main_v11
  let main_v13 : IVec S32768 1 := andi main_v10 main_v12
  let main_c_4 : IVec S_ 1 := constantI S_ 1 1#1
  let main_v14 : IVec S_ 1 := (fun x v => Host.reduce IntOp.andi x v reducesTo_S32768_S_d0 h_S_) main_v13 main_c_4
  let main_v15 : IVec S_ 1 := andi main_v8 main_v14
  let main_c_5 : IVec S_ 32 := constantI S_ 32 4294934528#32
  fn_part1 (F := F) main_arg2 main_v15 main_c_5
-- ==== Kernel.lean ====
abbrev S2048x32768 : Shape := ⟨2, ![2048, 32768]⟩
abbrev S32768 : Shape := ⟨1, ![32768]⟩
abbrev S32768x16 : Shape := ⟨2, ![32768, 16]⟩
abbrev S16x4 : Shape := ⟨2, ![16, 4]⟩
abbrev S_ : Shape := ⟨0, ![]⟩
abbrev S32768x1 : Shape := ⟨2, ![32768, 1]⟩
abbrev S32768x4 : Shape := ⟨2, ![32768, 4]⟩
abbrev S4x32768 : Shape := ⟨2, ![4, 32768]⟩
abbrev S1 : Shape := ⟨1, ![1]⟩
abbrev S1x1 : Shape := ⟨2, ![1, 1]⟩
abbrev S2048x512 : Shape := ⟨2, ![2048, 512]⟩
abbrev S4x512 : Shape := ⟨2, ![4, 512]⟩
abbrev S1x512 : Shape := ⟨2, ![1, 512]⟩

abbrev nBuf : Space → Nat
  | .hbm => 71
  | .vmem => 8
  | .smem => 0
  | _ => 0

abbrev bufTy : (tb : Table) → Fin (tcTables nBuf tb) → BufTy
  | .hbm, ⟨0, _⟩ => ⟨S2048x32768, .f32⟩
  | .hbm, ⟨1, _⟩ => ⟨S32768, .i32⟩
  | .hbm, ⟨2, _⟩ => ⟨S32768, .i32⟩
  | .hbm, ⟨3, _⟩ => ⟨S32768x16, .f32⟩
  | .hbm, ⟨4, _⟩ => ⟨S16x4, .f32⟩
  | .hbm, ⟨5, _⟩ => ⟨S_, .f32⟩
  | .hbm, ⟨6, _⟩ => ⟨S32768x16, .f32⟩
  | .hbm, ⟨7, _⟩ => ⟨S32768x16, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x16, .f32⟩
  | .hbm, ⟨15, _⟩ => ⟨S32768x16, .f32⟩
  | .hbm, ⟨16, _⟩ => ⟨S32768x16, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x16, .f32⟩
  | .hbm, ⟨21, _⟩ => ⟨S32768x16, .f32⟩
  | .hbm, ⟨22, _⟩ => ⟨S32768x4, .f32⟩
  | .hbm, ⟨23, _⟩ => ⟨S4x32768, .f32⟩
  | .hbm, ⟨24, _⟩ => ⟨S_, .i32⟩
  | .hbm, ⟨25, _⟩ => ⟨S32768, .i32⟩
  | .hbm, ⟨26, _⟩ => ⟨S32768, .i1⟩
  | .hbm, ⟨27, _⟩ => ⟨S_, .i32⟩
  | .hbm, ⟨28, _⟩ => ⟨S32768, .i32⟩
  | .hbm, ⟨29, _⟩ => ⟨S32768, .i32⟩
  | .hbm, ⟨30, _⟩ => ⟨S32768, .i32⟩
  | .hbm, ⟨31, _⟩ => ⟨S32768x1, .i32⟩
  | .hbm, ⟨32, _⟩ => ⟨S1, .i32⟩
  | .hbm, ⟨33, _⟩ => ⟨S_, .i32⟩
  | .hbm, ⟨34, _⟩ => ⟨S32768x1, .i32⟩
  | .hbm, ⟨35, _⟩ => ⟨S32768x1, .i1⟩
  | .hbm, ⟨36, _⟩ => ⟨S1x1, .i32⟩
  | .hbm, ⟨37, _⟩ => ⟨S32768x1, .i32⟩
  | .hbm, ⟨38, _⟩ => ⟨S32768x1, .i1⟩
  | .hbm, ⟨39, _⟩ => ⟨S32768x1, .i1⟩
  | .hbm, ⟨40, _⟩ => ⟨S_, .i1⟩
  | .hbm, ⟨41, _⟩ => ⟨S32768, .i1⟩
  | .hbm, ⟨42, _⟩ => ⟨S2048x32768, .f32⟩
  | .hbm, ⟨43, _⟩ => ⟨S2048x32768, .i1⟩
  | .hbm, ⟨44, _⟩ => ⟨S_, .f32⟩
  | .hbm, ⟨45, _⟩ => ⟨S2048x32768, .f32⟩
  | .hbm, ⟨46, _⟩ => ⟨S2048x32768, .f32⟩
  | .hbm, ⟨47, _⟩ => ⟨S_, .i32⟩
  | .hbm, ⟨48, _⟩ => ⟨S32768, .i32⟩
  | .hbm, ⟨49, _⟩ => ⟨S32768, .i1⟩
  | .hbm, ⟨50, _⟩ => ⟨S_, .i32⟩
  | .hbm, ⟨51, _⟩ => ⟨S32768, .i32⟩
  | .hbm, ⟨52, _⟩ => ⟨S32768, .i32⟩
  | .hbm, ⟨53, _⟩ => ⟨S32768, .i32⟩
  | .hbm, ⟨54, _⟩ => ⟨S32768x1, .i32⟩
  | .hbm, ⟨55, _⟩ => ⟨S1, .i32⟩
  | .hbm, ⟨56, _⟩ => ⟨S_, .i32⟩
  | .hbm, ⟨57, _⟩ => ⟨S32768x1, .i32⟩
  | .hbm, ⟨58, _⟩ => ⟨S32768x1, .i1⟩
  | .hbm, ⟨59, _⟩ => ⟨S1x1, .i32⟩
  | .hbm, ⟨60, _⟩ => ⟨S32768x1, .i32⟩
  | .hbm, ⟨61, _⟩ => ⟨S32768x1, .i1⟩
  | .hbm, ⟨62, _⟩ => ⟨S32768x1, .i1⟩
  | .hbm, ⟨63, _⟩ => ⟨S_, .i1⟩
  | .hbm, ⟨64, _⟩ => ⟨S32768, .i1⟩
  | .hbm, ⟨65, _⟩ => ⟨S2048x32768, .f32⟩
  | .hbm, ⟨66, _⟩ => ⟨S2048x32768, .i1⟩
  | .hbm, ⟨67, _⟩ => ⟨S_, .f32⟩
  | .hbm, ⟨68, _⟩ => ⟨S2048x32768, .f32⟩
  | .hbm, ⟨69, _⟩ => ⟨S2048x32768, .f32⟩
  | .hbm, ⟨70, _⟩ => ⟨S2048x32768, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S4x512, .f32⟩
  | .local _ .vmem, ⟨5, _⟩ => ⟨S4x512, .f32⟩
  | .local _ .vmem, ⟨6, _⟩ => ⟨S2048x512, .f32⟩
  | .local _ .vmem, ⟨7, _⟩ => ⟨S2048x512, .f32⟩
  | _, _ => ⟨S2048x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v15 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v16 : Ref sig .tc := ⟨.hbm, 69, rfl⟩
abbrev main_v17 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S32768x16 : S_.BroadcastsInDim S32768x16 (![] : Fin 0 → Fin S32768x16.rank)
  reducesTo_S32768x16_S32768_d1 : S32768x16.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x16_0_1 : S32768x1.BroadcastsInDim S32768x16 (![0, 1] : Fin 2 → Fin S32768x16.rank)
  transposes_S32768x4_S4x32768_1_0 : S32768x4.Transposes [1, 0] S4x32768
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  bcast_S32768_S2048x32768_1 : S32768.BroadcastsInDim S2048x32768 (![1] : Fin 1 → Fin S2048x32768.rank)
  bcast_S_S2048x32768 : S_.BroadcastsInDim S2048x32768 (![] : Fin 0 → Fin S2048x32768.rank)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S4x512_S4x512_0_0 : ∀ a, (![0, 0] : Fin 2 → Nat) a + S4x512.size a ≤ S4x512.size a
  h_S4x512 : 0 < S4x512.numel
  shapeCasts_S4x512_S4x512 : S4x512.ShapeCasts S4x512
  slices_S4x512_o0_0_S1x512 : S4x512.Slices ![0, 0] S1x512
  slices_S4x512_o1_0_S1x512 : S4x512.Slices ![1, 0] S1x512
  slices_S4x512_o2_0_S1x512 : S4x512.Slices ![2, 0] S1x512
  slices_S4x512_o3_0_S1x512 : S4x512.Slices ![3, 0] S1x512
  broadcasts_S1x512_S2048x512 : S1x512.Broadcasts S2048x512
  dot_S32768x16_S16x4_S32768x4_1_0_0_1_n_n_wf : DotDims.WF S32768x16 S16x4 S32768x4 [1] [0] [0] [1] [] []
  gather_S2048x32768_S32768x1_S2048x32768_0_1_n_n_1_1_20481_wf : GatherDims.WF S2048x32768 S32768x1 S2048x32768 [0] [1] [] [1] [] 1 ![2048, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x32768.size a
  hwx0_0 : ∀ i : grid0.Coords, EltTy.bits .f32 = 32 ∨ (Rect.block (s := S2048x32768) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x32768.size a
  hwx0_1 : ∀ i : grid0.Coords, EltTy.bits .f32 = 32 ∨ (Rect.block (s := S2048x32768) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x32768.size a
  hwx0_2 : ∀ i : grid0.Coords, EltTy.bits .f32 = 32 ∨ (Rect.block (s := S4x32768) S4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x32768.size a
  hwx0_3 : ∀ i : grid0.Coords, EltTy.bits .f32 = 32 ∨ (Rect.block (s := S2048x32768) S2048x512.size (cc0_transform_3 i) (hinb0_3 i)).WholeWords (EltTy.packing .f32)

variable [Facts₀]

def dot_S32768x16_S16x4_S32768x4_1_0_0_1_n_n : DotDims S32768x16 S16x4 S32768x4 where
  lhsContracting := [1]
  rhsContracting := [0]
  lhsNonContracting := [0]
  rhsNonContracting := [1]
  lhsBatch := []
  rhsBatch := []
  wf := dot_S32768x16_S16x4_S32768x4_1_0_0_1_n_n_wf
def gather_S2048x32768_S32768x1_S2048x32768_0_1_n_n_1_1_20481 : GatherDims S2048x32768 S32768x1 S2048x32768 where
  offsetDims := [0]
  collapsedSliceDims := [1]
  operandBatchingDims := []
  startIndicesBatchingDims := []
  startIndexMap := [1]
  indexVectorDim := 1
  sliceSizes := ![2048, 1]
  wf := gather_S2048x32768_S32768x1_S2048x32768_0_1_n_n_1_1_20481_wf

abbrev win0_0 : Pipeline.Window sig grid0 :=
  Pipeline.Window.ofSpec (Memref.whole main_v15) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x32768 : Shape := ⟨2, ![2048, 32768]⟩
abbrev S32768 : Shape := ⟨1, ![32768]⟩
abbrev S32768x16 : Shape := ⟨2, ![32768, 16]⟩
abbrev S16x4 : Shape := ⟨2, ![16, 4]⟩
abbrev S_ : Shape := ⟨0, ![]⟩
abbrev S32768x1 : Shape := ⟨2, ![32768, 1]⟩
abbrev S32768x4 : Shape := ⟨2, ![32768, 4]⟩
abbrev S1x32768 : Shape := ⟨2, ![1, 32768]⟩

abbrev nBuf : Space → Nat
  | .hbm => 64
  | .vmem => 0
  | .smem => 0
  | _ => 0

abbrev bufTy : (tb : Table) → Fin (tcTables nBuf tb) → BufTy
  | .hbm, ⟨0, _⟩ => ⟨S2048x32768, .f32⟩
  | .hbm, ⟨1, _⟩ => ⟨S32768, .i32⟩
  | .hbm, ⟨2, _⟩ => ⟨S32768, .i32⟩
  | .hbm, ⟨3, _⟩ => ⟨S32768x16, .f32⟩
  | .hbm, ⟨4, _⟩ => ⟨S16x4, .f32⟩
  | .hbm, ⟨5, _⟩ => ⟨S_, .f32⟩
  | .hbm, ⟨6, _⟩ => ⟨S32768x16, .f32⟩
  | .hbm, ⟨7, _⟩ => ⟨S32768x16, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x16, .f32⟩
  | .hbm, ⟨15, _⟩ => ⟨S32768x16, .f32⟩
  | .hbm, ⟨16, _⟩ => ⟨S32768x16, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x16, .f32⟩
  | .hbm, ⟨21, _⟩ => ⟨S32768x16, .f32⟩
  | .hbm, ⟨22, _⟩ => ⟨S32768x4, .f32⟩
  | .hbm, ⟨23, _⟩ => ⟨S_, .i32⟩
  | .hbm, ⟨24, _⟩ => ⟨S32768, .i32⟩
  | .hbm, ⟨25, _⟩ => ⟨S32768, .i1⟩
  | .hbm, ⟨26, _⟩ => ⟨S_, .i32⟩
  | .hbm, ⟨27, _⟩ => ⟨S32768, .i32⟩
  | .hbm, ⟨28, _⟩ => ⟨S32768, .i32⟩
  | .hbm, ⟨29, _⟩ => ⟨S32768, .i32⟩
  | .hbm, ⟨30, _⟩ => ⟨S32768x1, .i32⟩
  | .hbm, ⟨31, _⟩ => ⟨S2048x32768, .f32⟩
  | .hbm, ⟨32, _⟩ => ⟨S_, .i32⟩
  | .hbm, ⟨33, _⟩ => ⟨S32768, .i32⟩
  | .hbm, ⟨34, _⟩ => ⟨S32768, .i1⟩
  | .hbm, ⟨35, _⟩ => ⟨S_, .i32⟩
  | .hbm, ⟨36, _⟩ => ⟨S32768, .i32⟩
  | .hbm, ⟨37, _⟩ => ⟨S32768, .i32⟩
  | .hbm, ⟨38, _⟩ => ⟨S32768, .i32⟩
  | .hbm, ⟨39, _⟩ => ⟨S32768x1, .i32⟩
  | .hbm, ⟨40, _⟩ => ⟨S2048x32768, .f32⟩
  | .hbm, ⟨41, _⟩ => ⟨S32768x1, .f32⟩
  | .hbm, ⟨42, _⟩ => ⟨S32768, .f32⟩
  | .hbm, ⟨43, _⟩ => ⟨S32768x1, .f32⟩
  | .hbm, ⟨44, _⟩ => ⟨S32768, .f32⟩
  | .hbm, ⟨45, _⟩ => ⟨S32768x1, .f32⟩
  | .hbm, ⟨46, _⟩ => ⟨S32768, .f32⟩
  | .hbm, ⟨47, _⟩ => ⟨S32768x1, .f32⟩
  | .hbm, ⟨48, _⟩ => ⟨S32768, .f32⟩
  | .hbm, ⟨49, _⟩ => ⟨S1x32768, .f32⟩
  | .hbm, ⟨50, _⟩ => ⟨S2048x32768, .f32⟩
  | .hbm, ⟨51, _⟩ => ⟨S2048x32768, .f32⟩
  | .hbm, ⟨52, _⟩ => ⟨S1x32768, .f32⟩
  | .hbm, ⟨53, _⟩ => ⟨S2048x32768, .f32⟩
  | .hbm, ⟨54, _⟩ => ⟨S2048x32768, .f32⟩
  | .hbm, ⟨55, _⟩ => ⟨S1x32768, .f32⟩
  | .hbm, ⟨56, _⟩ => ⟨S2048x32768, .f32⟩
  | .hbm, ⟨57, _⟩ => ⟨S2048x32768, .f32⟩
  | .hbm, ⟨58, _⟩ => ⟨S2048x32768, .f32⟩
  | .hbm, ⟨59, _⟩ => ⟨S2048x32768, .f32⟩
  | .hbm, ⟨60, _⟩ => ⟨S1x32768, .f32⟩
  | .hbm, ⟨61, _⟩ => ⟨S2048x32768, .f32⟩
  | .hbm, ⟨62, _⟩ => ⟨S2048x32768, .f32⟩
  | .hbm, ⟨63, _⟩ => ⟨S2048x32768, .f32⟩
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]

class Facts₀ : Prop where
  bcast_S_S32768x16 : S_.BroadcastsInDim S32768x16 (![] : Fin 0 → Fin S32768x16.rank)
  reducesTo_S32768x16_S32768_d1 : S32768x16.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x16_0_1 : S32768x1.BroadcastsInDim S32768x16 (![0, 1] : Fin 2 → Fin S32768x16.rank)
  slices_S32768x4_S32768x1_0_0 : S32768x4.Slices ![0, 0] S32768x1
  shapeCasts_S32768x1_S32768 : S32768x1.ShapeCasts S32768
  slices_S32768x4_S32768x1_0_1 : S32768x4.Slices ![0, 1] S32768x1
  slices_S32768x4_S32768x1_0_2 : S32768x4.Slices ![0, 2] S32768x1
  slices_S32768x4_S32768x1_0_3 : S32768x4.Slices ![0, 3] S32768x1
  bcast_S32768_S1x32768_1 : S32768.BroadcastsInDim S1x32768 (![1] : Fin 1 → Fin S1x32768.rank)
  bcast_S1x32768_S2048x32768_0_1 : S1x32768.BroadcastsInDim S2048x32768 (![0, 1] : Fin 2 → Fin S2048x32768.rank)
  dot_S32768x16_S16x4_S32768x4_1_0_0_1_n_n_wf : DotDims.WF S32768x16 S16x4 S32768x4 [1] [0] [0] [1] [] []
  gather_S2048x32768_S32768x1_S2048x32768_0_1_n_n_1_1_20481_wf : GatherDims.WF S2048x32768 S32768x1 S2048x32768 [0] [1] [] [1] [] 1 ![2048, 1]

variable [Facts₀]

def dot_S32768x16_S16x4_S32768x4_1_0_0_1_n_n : DotDims S32768x16 S16x4 S32768x4 where
  lhsContracting := [1]
  rhsContracting := [0]
  lhsNonContracting := [0]
  rhsNonContracting := [1]
  lhsBatch := []
  rhsBatch := []
  wf := dot_S32768x16_S16x4_S32768x4_1_0_0_1_n_n_wf
def gather_S2048x32768_S32768x1_S2048x32768_0_1_n_n_1_1_20481 : GatherDims S2048x32768 S32768x1 S2048x32768 where
  offsetDims := [0]
  collapsedSliceDims := [1]
  operandBatchingDims := []
  startIndicesBatchingDims := []
  startIndexMap := [1]
  indexVectorDim := 1
  sliceSizes := ![2048, 1]
  wf := gather_S2048x32768_S32768x1_S2048x32768_0_1_n_n_1_1_20481_wf

class Facts : Prop extends Facts₀ where

variable [Facts]
-- ==== Proof.KHost.lean ====
/-
  The kernel program's host side, read back.  Before the pallas_call @main computes, by host operations, the three arrays
  the call's input windows stage:

    window 2  ←  transpose (coef w)            -- [4, 32768]: the gate coefficients, one row per coefficient
    window 0  ←  takeFill x idx_a              -- [2048, 32768]
    window 1  ←  takeFill x idx_b

  where coef is the row-wise softmax of the weights times the gate table, and takeFill x idx is jnp.take in its fill mode:
  the columns of x picked by idx (a negative index counting from the end), with a fill value on every lane whose wrapped
  index falls outside [0, 32767].  Each is ONE pure function of the argument arrays as launched.
-/
import proofs.«416665_j86277303042366_1_alg».proof.Proof.Gen.KernelIdeal.Frame
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-! ## The pure stages -/

/-- The gate coefficients: a row-wise softmax of the weights (the row maximum subtracted, exponentials over their row sum)
    times the 16 × 4 table of gate polynomials. -/
def coef (wt : FVec F S32768x16 .f32) : FVec F S32768x4 .f32 :=
  let w1 : FVec F S32768x16 .f32 := Host.divf wt (broadcastInDim S32768x16 ![] bcast_S_S32768x16 (constant (F := F) S_ .f32 0x3F800000#32))
  let mx : FVec F S32768 .f32 := maximumf (broadcastInDim S32768 ![] bcast_S_S32768 (constant (F := F) S_ .f32 0xFF800000#32))
    (Host.reduce FloatOps.maximumf w1 (constant (F := F) S_ .f32 0xFF800000#32) reducesTo_S32768x16_S32768_d1 h_S_)
  let e : FVec F S32768x16 .f32 := Host.exp (subf w1 (broadcastInDim S32768x16 ![0, 1] bcast_S32768x1_S32768x16_0_1 (broadcastInDim S32768x1 ![0] bcast_S32768_S32768x1_0 mx)))
  let s : FVec F S32768 .f32 := Host.reduceAdd e (constant (F := F) S_ .f32 0x00000000#32) reducesTo_S32768x16_S32768_d1 h_S_
  Host.dotGeneral dot_S32768x16_S16x4_S32768x4_1_0_0_1_n_n none
    (Host.divf e (broadcastInDim S32768x16 ![0, 1] bcast_S32768x1_S32768x16_0_1 (broadcastInDim S32768x1 ![0] bcast_S32768_S32768x1_0 s)))
    (fun i => FloatOps.ofBits .f32 (lit0 (S16x4.rowMajor i)))

/-- The start-index column of a take: a negative index counts from the end of the axis. -/
def wrapcol (idx : IVec S32768 32) : IVec S32768x1 32 :=
  broadcastInDim S32768x1 ![0] bcast_S32768_S32768x1_0
    (select (cmpi .slt idx (broadcastInDim S32768 ![] bcast_S_S32768 (constantI S_ 32 0#32)))
      (addi idx (broadcastInDim S32768 ![] bcast_S_S32768 (constantI S_ 32 32768#32))) idx)

/-- Columns of `x` picked by an index vector (the gather itself clamps a start index into the table). -/
def take (x : FVec F S2048x32768 .f32) (idx : IVec S32768 32) : FVec F S2048x32768 .f32 :=
  Host.gather gather_S2048x32768_S32768x1_S2048x32768_0_1_n_n_1_1_20481 x (wrapcol idx)

/-- The mask of the lanes whose wrapped index lies in [0, 32767], laid along every batch row. -/
def inrange (idx : IVec S32768 32) : IVec S2048x32768 1 :=
  broadcastInDim S2048x32768 ![1] bcast_S32768_S2048x32768_1
    (Host.reduce IntOp.andi
      (andi (cmpi .sge (wrapcol idx) (broadcastInDim S32768x1 ![] bcast_S_S32768x1 (constantI S_ 32 0#32)))
        (cmpi .sle (wrapcol idx) (broadcastInDim S32768x1 ![0, 1] bcast_S1x1_S32768x1_0_1 (broadcastInDim S1x1 ![1] bcast_S1_S1x1_1 (constantI S1 32 32767#32)))))
      (constantI S_ 1 1#1) reducesTo_S32768x1_S32768_d1 h_S_)

/-- jnp.take in its fill mode: the picked columns where the index is in range, a fill value elsewhere. -/
def takeFill (x : FVec F S2048x32768 .f32) (idx : IVec S32768 32) : FVec F S2048x32768 .f32 :=
  select (inrange idx) (take x idx) (broadcastInDim S2048x32768 ![] bcast_S_S2048x32768 (constant (F := F) S_ .f32 0x7FC00000#32))

/-! ## What the region finds in its three input arrays -/

variable (m : (ℓ : Loc nD τ sig) → Buf (Elt F) ℓ)

set_option maxRecDepth 100000 in
set_option maxHeartbeats 4000000 in
/-- Window 2's array: the coefficients, transposed. -/
theorem V_coef (c : Dev nD) :
    V m c main_v14 = transpose S4x32768 [1, 0] (coef (m ((c : Thread nD τ).loc main_arg3))) transposes_S32768x4_S4x32768_1_0 := by
  dsimp only [V]
  simp only [hostOps0, hostOps0_1, hostOps0_2, List.flatten_cons, List.flatten_nil, List.append_nil, List.cons_append, List.nil_append]
  after_results_simp <;> rfl

set_option maxRecDepth 100000 in
set_option maxHeartbeats 4000000 in
/-- Window 0's array: the take by the first index vector. -/
theorem V_takeA (c : Dev nD) :
    V m c main_v15 = takeFill (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp <;> rfl

set_option maxRecDepth 100000 in
set_option maxHeartbeats 4000000 in
/-- Window 1's array: the take by the second index vector. -/
theorem V_takeB (c : Dev nD) :
    V m c main_v16 = takeFill (m ((c : Thread nD τ).loc main_arg0)) (m ((c : Thread nD τ).loc main_arg2)) := by
  dsimp only [V]
  simp only [hostOps0, hostOps0_1, hostOps0_2, List.flatten_cons, List.flatten_nil, List.append_nil, List.cons_append, List.nil_append]
  after_results_simp <;> rfl

end Cert.KernelIdeal.KHost

end
-- ==== Proof.GatePoly.lean ====
/-
  The gate polynomial at an index of the [2048, 32768] result: c₀ + c₁·a + c₂·b + c₃·(a·b), where a and b are the two picked
  inputs at the index and the four coefficients are read from a [4, 32768] array at the index's lane.
-/
import Idealize.ShloMosaic.Lib.ValueIdx
import Idealize.ShloMosaic.PureOps

noncomputable section

namespace Cert.GatePoly

open Idealize.ShloMosaic Idealize.ShloMosaic.ValueIdx

variable {F : FTy → Type} [FloatOps F]

/-- Row `k` of the [4, 32768] coefficient array at the lane of `i`. -/
abbrev crow (k : Fin 4) (i : (⟨2, ![2048, 32768]⟩ : Shape).Idx) : (⟨2, ![4, 32768]⟩ : Shape).Idx :=
  ix2 k ⟨(i 1).val, idx2_lt1 i⟩

/-- c₀ + c₁·a + c₂·b + c₃·(a·b) at an index, the coefficients read at the index's lane. -/
def lanePoly (ct : (⟨2, ![4, 32768]⟩ : Shape).Idx → Elt F .f32) (a b : (⟨2, ![2048, 32768]⟩ : Shape).Idx → Elt F .f32) :
    (⟨2, ![2048, 32768]⟩ : Shape).Idx → Elt F .f32 :=
  fun i => FloatOps.addf (FloatOps.addf (FloatOps.addf (ct (crow 0 i)) (FloatOps.mulf (ct (crow 1 i)) (a i))) (FloatOps.mulf (ct (crow 2 i)) (b i)))
    (FloatOps.mulf (ct (crow 3 i)) (FloatOps.mulf (a i) (b i)))

end Cert.GatePoly

end
-- ==== Proof.KernelValue.lean ====
/-
  What the kernel program leaves in its result array.  The pallas_call walks 64 grid points; point t stages columns
  [512 t, 512 t + 512) of the two picked arrays and of the [4, 32768] coefficient array and writes the same columns of the
  result.  The body's block is, entry by entry, the gate polynomial c₀ + c₁·a + c₂·b + c₃·(a·b) of its loads (the generated
  block function), so what point t writes back is block t of ONE whole-array function, `lanePoly` of the three staged
  arrays; the 64 blocks tile the result, which therefore ends holding that function.  The staged arrays are the host
  stages of the argument arrays (the transposed coefficients, the two takes in fill mode).
-/
import proofs.«416665_j86277303042366_1_alg».proof.Proof.Gen.KernelIdeal.Value
import proofs.«416665_j86277303042366_1_alg».proof.Proof.KHost
import proofs.«416665_j86277303042366_1_alg».proof.Proof.GatePoly

noncomputable section

namespace Cert.KernelIdeal.KValue

open Cert.KernelIdeal Cert.KernelIdeal.Gen Idealize.ShloMosaic Idealize.ShloMosaic.TcCoe Idealize.SL.Sem
open Idealize.ShloMosaic.Pipeline (Dat)
open Cert.GatePoly Cert.KernelIdeal.KHost

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The body's one store leaves the generated block function of its three loads. -/
theorem canonE (P0 : Vec F S4x512 .f32) (P1 P2 : Vec F S2048x512 .f32) :
    View.canon [⟨r0_0, k0_pay1 P1 P2 P0⟩] = Value.E3 P0 P1 P2 := funext fun y => Value.canon3_eq P0 P1 P2 y

/-- The printed index maps over the 64 grid points: the two data windows move with the output window, the coefficient
    window keeps to block row 0 and follows the output's block column, and the output's block column is the point. -/
theorem idx_facts : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) = 0
    ∧ win0_3.index t (1 : Fin 2) = t.val :=
  (by decide +kernel : ∀ t : Fin grid0.N, _)

/-- Where the coefficient block's entry (k, q) sits in its array: row k, at the lane of the output block's column q. -/
theorem emb_coef (t : Fin cfg0.N) (k : Fin 4) (y : S4x512.Idx) (j : S2048x512.Idx) (hy0 : (y 0).val = k.val) (hy1 : (y 1).val = (j 1).val) :
    ((cfg0.win 2).blk t).view.emb y = crow k (((cfg0.win 3).blk t).view.emb j) := by
  obtain ⟨-, -, -, -, e4, e5, -, -⟩ := idx_facts t
  funext a; apply Fin.ext
  match a with
  | ⟨0, _⟩ => show win0_2.index t (0 : Fin 2) * 4 + 1 * (y 0).val = k.val; omega
  | ⟨1, _⟩ => show win0_2.index t (1 : Fin 2) * 512 + 1 * (y 1).val = win0_3.index t (1 : Fin 2) * 512 + 1 * (j 1).val; omega

/-- The first data window's block sits where the output's does. -/
theorem emb_a (t : Fin cfg0.N) (y j : S2048x512.Idx) (hy0 : (y 0).val = (j 0).val) (hy1 : (y 1).val = (j 1).val) :
    ((cfg0.win 0).blk t).view.emb y = ((cfg0.win 3).blk t).view.emb j := by
  obtain ⟨e0, e1, -, -, -, -, -, -⟩ := idx_facts t
  funext a; apply Fin.ext
  match a with
  | ⟨0, _⟩ => show win0_0.index t (0 : Fin 2) * 2048 + 1 * (y 0).val = win0_3.index t (0 : Fin 2) * 2048 + 1 * (j 0).val; omega
  | ⟨1, _⟩ => show win0_0.index t (1 : Fin 2) * 512 + 1 * (y 1).val = win0_3.index t (1 : Fin 2) * 512 + 1 * (j 1).val; omega

/-- So does the second's. -/
theorem emb_b (t : Fin cfg0.N) (y j : S2048x512.Idx) (hy0 : (y 0).val = (j 0).val) (hy1 : (y 1).val = (j 1).val) :
    ((cfg0.win 1).blk t).view.emb y = ((cfg0.win 3).blk t).view.emb j := by
  obtain ⟨-, -, e2, e3, -, -, -, -⟩ := idx_facts t
  funext a; apply Fin.ext
  match a with
  | ⟨0, _⟩ => show win0_1.index t (0 : Fin 2) * 2048 + 1 * (y 0).val = win0_3.index t (0 : Fin 2) * 2048 + 1 * (j 0).val; omega
  | ⟨1, _⟩ => show win0_1.index t (1 : Fin 2) * 512 + 1 * (y 1).val = win0_3.index t (1 : Fin 2) * 512 + 1 * (j 1).val; omega

set_option maxHeartbeats 4000000 in
/-- WHAT POINT `t` WRITES BACK is block `t` of the gate polynomial of the three staged arrays. -/
theorem flushed_eq (c : Dev nD) (t : Fin cfg0.N) :
    (dats m 0 c).flushed 3 t = ((cfg0.win 3).blk t).view.read (Elt F) (lanePoly (V m c main_v14) (V m c main_v15) (V m c main_v16)) := by
  rw [Value.flushed3]
  unfold out0_3
  rw [canonE]
  simp only [View.ld_unit_zero (S := S2048x512) hz, View.ld_unit_zero (S := S4x512) hz]
  funext j
  show FloatOps.addf (FloatOps.addf (FloatOps.addf
        (V m c main_v14 (((cfg0.win 2).blk t).view.emb (Value.ix3_0 j)))
        (FloatOps.mulf (V m c main_v14 (((cfg0.win 2).blk t).view.emb (Value.ix3_1 j))) (V m c main_v15 (((cfg0.win 0).blk t).view.emb (Value.ix3_2 j)))))
        (FloatOps.mulf (V m c main_v14 (((cfg0.win 2).blk t).view.emb (Value.ix3_3 j))) (V m c main_v16 (((cfg0.win 1).blk t).view.emb (Value.ix3_4 j)))))
      (FloatOps.mulf (V m c main_v14 (((cfg0.win 2).blk t).view.emb (Value.ix3_5 j)))
        (FloatOps.mulf (V m c main_v15 (((cfg0.win 0).blk t).view.emb (Value.ix3_6 j))) (V m c main_v16 (((cfg0.win 1).blk t).view.emb (Value.ix3_7 j)))))
    = lanePoly (V m c main_v14) (V m c main_v15) (V m c main_v16) (((cfg0.win 3).blk t).view.emb j)
  rw [emb_coef t 0 (Value.ix3_0 j) j rfl rfl, emb_coef t 1 (Value.ix3_1 j) j rfl rfl, emb_coef t 2 (Value.ix3_3 j) j rfl rfl,
    emb_coef t 3 (Value.ix3_5 j) j rfl rfl, emb_a t (Value.ix3_2 j) j rfl rfl, emb_b t (Value.ix3_4 j) j rfl rfl]
  rfl

/-- An index of the result is in point `t`'s block iff each coordinate is in the block's range on its axis. -/
theorem mem_blk (t : Fin cfg0.N) (i : S2048x32768.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v17).slice (win0_3.rect t)).set ↔ _
  rw [View.set_slice_whole, Rect.mem_set_unit]
  exact Iff.rfl

/-- The 64 blocks tile the result: column q lies in the block of point q / 512. -/
theorem cover (i : S2048x32768.Idx) : ∃ t : Fin cfg0.N, (cfg0.win 3).flush t = true ∧ i ∈ ((cfg0.win 3).blk t).view.set := by
  have hi0 : (i 0).val < 2048 := (i 0).isLt
  have hi1 : (i 1).val < 32768 := (i 1).isLt
  have hlt : (i 1).val / 512 < 64 := by omega
  refine ⟨⟨(i 1).val / 512, hlt⟩, flush0_3 _, ?_⟩
  rw [mem_blk]
  obtain ⟨-, -, -, -, -, -, e6, e7⟩ := idx_facts ⟨(i 1).val / 512, hlt⟩
  have e7' : win0_3.index ⟨(i 1).val / 512, hlt⟩ (1 : Fin 2) = (i 1).val / 512 := e7
  intro a
  match a with
  | ⟨0, _⟩ =>
    show win0_3.index ⟨(i 1).val / 512, hlt⟩ (0 : Fin 2) * 2048 ≤ (i 0).val ∧ (i 0).val < win0_3.index ⟨(i 1).val / 512, hlt⟩ (0 : Fin 2) * 2048 + 2048
    omega
  | ⟨1, _⟩ =>
    show win0_3.index ⟨(i 1).val / 512, hlt⟩ (1 : Fin 2) * 512 ≤ (i 1).val ∧ (i 1).val < win0_3.index ⟨(i 1).val / 512, hlt⟩ (1 : Fin 2) * 512 + 512
    omega

/-- THE RESULT ARRAY after the run: the gate polynomial of the three staged arrays. -/
theorem final (c : Dev nD) :
    (dats m 0 c).arrAt 3 cfg0.N = lanePoly (V m c main_v14) (V m c main_v15) (V m c main_v16) :=
  (dats m 0 c).arrAt_eq_of_cover 3 (lanePoly (V m c main_v14) (V m c main_v15) (V m c main_v16)) (fun t _ => flushed_eq m c t) cover

/-- The kernel program's run: the result at the gate polynomial of the transposed coefficients and the two takes in fill
    mode of the argument arrays as launched, the arguments unchanged. -/
theorem run : θ_run defs (onTc (τ := τ) (main (F := F))) ⟨m, fun _ => 0, ρ⟩ fun r => ∀ c : Dev nD,
      r.2.mem ((c : Thread nD τ).loc main_v17)
        = lanePoly (transpose S4x32768 [1, 0] (coef (m ((c : Thread nD τ).loc main_arg3))) transposes_S32768x4_S4x32768_1_0)
            (takeFill (m ((c : Thread nD τ).loc main_arg0)) (m ((c : Thread nD τ).loc main_arg1)))
            (takeFill (m ((c : Thread nD τ).loc main_arg0)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (by rw [final m c, V_coef m c, V_takeA m c, V_takeB m c]), (h c).2⟩)
    (Value.run_blocks m ρ)

end Cert.KernelIdeal.KValue

end
-- ==== Proof.RefRun.lean ====
/-
  The reference program's run, read back.  Its @main is a straight line of sixty host operations; listed in order they
  compose, buffer by buffer, to ONE pure function of the four argument arrays:

    coef w      = softmax(w / 1) · gate          -- [32768, 4]: per output lane the four gate coefficients
    take x idx  = x[:, wrap idx]                 -- wrap i = i + 32768 when i < 0, else i (NumPy's negative indices),
                                                    the gather clamping the start index into the table
    combine c a b = c₀ + c₁·a + c₂·b + c₃·(a·b)   -- lane-wise, the coefficient columns laid along the batch axis

  and the result buffer ends at combine (coef w) (take x idx_a) (take x idx_b), the arguments unchanged.
-/
import proofs.«416665_j86277303042366_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The pure stages -/

/-- The gate coefficients: a row-wise softmax of the weights (the row maximum subtracted, exponentials over their row sum)
    times the 16 × 4 table of gate polynomials. -/
def coef (wt : FVec F S32768x16 .f32) : FVec F S32768x4 .f32 :=
  let w1 : FVec F S32768x16 .f32 := Host.divf wt (broadcastInDim S32768x16 ![] bcast_S_S32768x16 (constant (F := F) S_ .f32 0x3F800000#32))
  let mx : FVec F S32768 .f32 := maximumf (broadcastInDim S32768 ![] bcast_S_S32768 (constant (F := F) S_ .f32 0xFF800000#32))
    (Host.reduce FloatOps.maximumf w1 (constant (F := F) S_ .f32 0xFF800000#32) reducesTo_S32768x16_S32768_d1 h_S_)
  let e : FVec F S32768x16 .f32 := Host.exp (subf w1 (broadcastInDim S32768x16 ![0, 1] bcast_S32768x1_S32768x16_0_1 (broadcastInDim S32768x1 ![0] bcast_S32768_S32768x1_0 mx)))
  let s : FVec F S32768 .f32 := Host.reduceAdd e (constant (F := F) S_ .f32 0x00000000#32) reducesTo_S32768x16_S32768_d1 h_S_
  Host.dotGeneral dot_S32768x16_S16x4_S32768x4_1_0_0_1_n_n none
    (Host.divf e (broadcastInDim S32768x16 ![0, 1] bcast_S32768x1_S32768x16_0_1 (broadcastInDim S32768x1 ![0] bcast_S32768_S32768x1_0 s)))
    (fun i => FloatOps.ofBits .f32 (lit0 (S16x4.rowMajor i)))

/-- The start-index column of a take: a negative index counts from the end of the axis. -/
def wrapcol (idx : IVec S32768 32) : IVec S32768x1 32 :=
  broadcastInDim S32768x1 ![0] bcast_S32768_S32768x1_0
    (select (cmpi .slt idx (broadcastInDim S32768 ![] bcast_S_S32768 (constantI S_ 32 0#32)))
      (addi idx (broadcastInDim S32768 ![] bcast_S_S32768 (constantI S_ 32 32768#32))) idx)

/-- Columns of `x` picked by an index vector. -/
def take (x : FVec F S2048x32768 .f32) (idx : IVec S32768 32) : FVec F S2048x32768 .f32 :=
  Host.gather gather_S2048x32768_S32768x1_S2048x32768_0_1_n_n_1_1_20481 x (wrapcol idx)

/-- A per-lane vector laid along every batch row. -/
def lane (v : FVec F S32768 .f32) : FVec F S2048x32768 .f32 :=
  broadcastInDim S2048x32768 ![0, 1] bcast_S1x32768_S2048x32768_0_1 (broadcastInDim S1x32768 ![1] bcast_S32768_S1x32768_1 v)

/-- Column k of the coefficient matrix as a vector over the lanes. -/
def col0 (cf : FVec F S32768x4 .f32) : FVec F S32768 .f32 :=
  shapeCast S32768 (extractStridedSlice S32768x1 ![0, 0] cf slices_S32768x4_S32768x1_0_0) shapeCasts_S32768x1_S32768
def col1 (cf : FVec F S32768x4 .f32) : FVec F S32768 .f32 :=
  shapeCast S32768 (extractStridedSlice S32768x1 ![0, 1] cf slices_S32768x4_S32768x1_0_1) shapeCasts_S32768x1_S32768
def col2 (cf : FVec F S32768x4 .f32) : FVec F S32768 .f32 :=
  shapeCast S32768 (extractStridedSlice S32768x1 ![0, 2] cf slices_S32768x4_S32768x1_0_2) shapeCasts_S32768x1_S32768
def col3 (cf : FVec F S32768x4 .f32) : FVec F S32768 .f32 :=
  shapeCast S32768 (extractStridedSlice S32768x1 ![0, 3] cf slices_S32768x4_S32768x1_0_3) shapeCasts_S32768x1_S32768

/-- The gate polynomial, lane-wise: c₀ + c₁·a + c₂·b + c₃·(a·b). -/
def combine (cf : FVec F S32768x4 .f32) (a b : FVec F S2048x32768 .f32) : FVec F S2048x32768 .f32 :=
  addf (addf (addf (lane (col0 cf)) (mulf (lane (col1 cf)) a)) (mulf (lane (col2 cf)) b)) (mulf (lane (col3 cf)) (mulf a b))

/-- What the reference computes of its four arguments. -/
def res (x : FVec F S2048x32768 .f32) (ia ib : IVec S32768 32) (wt : FVec F S32768x16 .f32) : FVec F S2048x32768 .f32 :=
  combine (coef wt) (take x ia) (take x ib)

/-! ## @main as a list of operations, and its run -/

/-- @main's 60 operations, in order. -/
abbrev ops : List (HloOp τ sig (Elt F)) :=
  [
    nullary main_cst (fun i => FloatOps.ofBits .f32 (lit0 (S16x4.rowMajor i))),
    nullary main_cst_0 (constant S_ .f32 0x3F800000#32),
    unary main_cst_0 main_v0 (broadcastInDim S32768x16 ![] bcast_S_S32768x16 : (⟨S_, .f32⟩ : BufTy).Contents (Elt F) → (⟨S32768x16, .f32⟩ : BufTy).Contents (Elt F)),
    binary main_arg3 main_v0 main_v1 (Host.divf : (⟨S32768x16, .f32⟩ : BufTy).Contents (Elt F) → (⟨S32768x16, .f32⟩ : BufTy).Contents (Elt F) → (⟨S32768x16, .f32⟩ : BufTy).Contents (Elt F)),
    nullary main_cst_1 (constant S_ .f32 0xFF800000#32),
    binary main_v1 main_cst_1 main_v2 ((fun x v => Host.reduce FloatOps.maximumf x v reducesTo_S32768x16_S32768_d1 h_S_) : (⟨S32768x16, .f32⟩ : BufTy).Contents (Elt F) → (⟨S_, .f32⟩ : BufTy).Contents (Elt F) → (⟨S32768, .f32⟩ : BufTy).Contents (Elt F)),
    nullary main_cst_2 (constant S_ .f32 0xFF800000#32),
    unary main_cst_2 main_v3 (broadcastInDim S32768 ![] bcast_S_S32768 : (⟨S_, .f32⟩ : BufTy).Contents (Elt F) → (⟨S32768, .f32⟩ : BufTy).Contents (Elt F)),
    binary main_v3 main_v2 main_v4 (maximumf : (⟨S32768, .f32⟩ : BufTy).Contents (Elt F) → (⟨S32768, .f32⟩ : BufTy).Contents (Elt F) → (⟨S32768, .f32⟩ : BufTy).Contents (Elt F)),
    unary main_v4 main_v5 (broadcastInDim S32768x1 ![0] bcast_S32768_S32768x1_0 : (⟨S32768, .f32⟩ : BufTy).Contents (Elt F) → (⟨S32768x1, .f32⟩ : BufTy).Contents (Elt F)),
    unary main_v5 main_v6 (broadcastInDim S32768x16 ![0, 1] bcast_S32768x1_S32768x16_0_1 : (⟨S32768x1, .f32⟩ : BufTy).Contents (Elt F) → (⟨S32768x16, .f32⟩ : BufTy).Contents (Elt F)),
    binary main_v1 main_v6 main_v7 (subf : (⟨S32768x16, .f32⟩ : BufTy).Contents (Elt F) → (⟨S32768x16, .f32⟩ : BufTy).Contents (Elt F) → (⟨S32768x16, .f32⟩ : BufTy).Contents (Elt F)),
    unary main_v7 main_v8 (Host.exp : (⟨S32768x16, .f32⟩ : BufTy).Contents (Elt F) → (⟨S32768x16, .f32⟩ : BufTy).Contents (Elt F)),
    nullary main_cst_3 (constant S_ .f32 0x00000000#32),
    binary main_v8 main_cst_3 main_v9 ((fun x v => Host.reduceAdd x v reducesTo_S32768x16_S32768_d1 h_S_) : (⟨S32768x16, .f32⟩ : BufTy).Contents (Elt F) → (⟨S_, .f32⟩ : BufTy).Contents (Elt F) → (⟨S32768, .f32⟩ : BufTy).Contents (Elt F)),
    unary main_v9 main_v10 (broadcastInDim S32768x1 ![0] bcast_S32768_S32768x1_0 : (⟨S32768, .f32⟩ : BufTy).Contents (Elt F) → (⟨S32768x1, .f32⟩ : BufTy).Contents (Elt F)),
    unary main_v10 main_v11 (broadcastInDim S32768x16 ![0, 1] bcast_S32768x1_S32768x16_0_1 : (⟨S32768x1, .f32⟩ : BufTy).Contents (Elt F) → (⟨S32768x16, .f32⟩ : BufTy).Contents (Elt F)),
    binary main_v8 main_v11 main_v12 (Host.divf : (⟨S32768x16, .f32⟩ : BufTy).Contents (Elt F) → (⟨S32768x16, .f32⟩ : BufTy).Contents (Elt F) → (⟨S32768x16, .f32⟩ : BufTy).Contents (Elt F)),
    binary main_v12 main_cst main_v13 ((fun l r => Host.dotGeneral dot_S32768x16_S16x4_S32768x4_1_0_0_1_n_n none l r) : (⟨S32768x16, .f32⟩ : BufTy).Contents (Elt F) → (⟨S16x4, .f32⟩ : BufTy).Contents (Elt F) → (⟨S32768x4, .f32⟩ : BufTy).Contents (Elt F)),
    nullary main_c (constantI S_ 32 0#32),
    unary main_c main_v14 (broadcastInDim S32768 ![] bcast_S_S32768 : (⟨S_, .i32⟩ : BufTy).Contents (Elt F) → (⟨S32768, .i32⟩ : BufTy).Contents (Elt F)),
    binary main_arg1 main_v14 main_v15 (cmpi .slt : (⟨S32768, .i32⟩ : BufTy).Contents (Elt F) → (⟨S32768, .i32⟩ : BufTy).Contents (Elt F) → (⟨S32768, .i1⟩ : BufTy).Contents (Elt F)),
    nullary main_c_4 (constantI S_ 32 32768#32),
    unary main_c_4 main_v16 (broadcastInDim S32768 ![] bcast_S_S32768 : (⟨S_, .i32⟩ : BufTy).Contents (Elt F) → (⟨S32768, .i32⟩ : BufTy).Contents (Elt F)),
    binary main_arg1 main_v16 main_v17 (addi : (⟨S32768, .i32⟩ : BufTy).Contents (Elt F) → (⟨S32768, .i32⟩ : BufTy).Contents (Elt F) → (⟨S32768, .i32⟩ : BufTy).Contents (Elt F)),
    ternary main_v15 main_v17 main_arg1 main_v18 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v18 main_v19 (broadcastInDim S32768x1 ![0] bcast_S32768_S32768x1_0 : (⟨S32768, .i32⟩ : BufTy).Contents (Elt F) → (⟨S32768x1, .i32⟩ : BufTy).Contents (Elt F)),
    binary main_arg0 main_v19 main_v20 ((fun x i => Host.gather gather_S2048x32768_S32768x1_S2048x32768_0_1_n_n_1_1_20481 x i) : (⟨S2048x32768, .f32⟩ : BufTy).Contents (Elt F) → (⟨S32768x1, .i32⟩ : BufTy).Contents (Elt F) → (⟨S2048x32768, .f32⟩ : BufTy).Contents (Elt F)),
    nullary main_c_5 (constantI S_ 32 0#32),
    unary main_c_5 main_v21 (broadcastInDim S32768 ![] bcast_S_S32768 : (⟨S_, .i32⟩ : BufTy).Contents (Elt F) → (⟨S32768, .i32⟩ : BufTy).Contents (Elt F)),
    binary main_arg2 main_v21 main_v22 (cmpi .slt : (⟨S32768, .i32⟩ : BufTy).Contents (Elt F) → (⟨S32768, .i32⟩ : BufTy).Contents (Elt F) → (⟨S32768, .i1⟩ : BufTy).Contents (Elt F)),
    nullary main_c_6 (constantI S_ 32 32768#32),
    unary main_c_6 main_v23 (broadcastInDim S32768 ![] bcast_S_S32768 : (⟨S_, .i32⟩ : BufTy).Contents (Elt F) → (⟨S32768, .i32⟩ : BufTy).Contents (Elt F)),
    binary main_arg2 main_v23 main_v24 (addi : (⟨S32768, .i32⟩ : BufTy).Contents (Elt F) → (⟨S32768, .i32⟩ : BufTy).Contents (Elt F) → (⟨S32768, .i32⟩ : BufTy).Contents (Elt F)),
    ternary main_v22 main_v24 main_arg2 main_v25 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v25 main_v26 (broadcastInDim S32768x1 ![0] bcast_S32768_S32768x1_0 : (⟨S32768, .i32⟩ : BufTy).Contents (Elt F) → (⟨S32768x1, .i32⟩ : BufTy).Contents (Elt F)),
    binary main_arg0 main_v26 main_v27 ((fun x i => Host.gather gather_S2048x32768_S32768x1_S2048x32768_0_1_n_n_1_1_20481 x i) : (⟨S2048x32768, .f32⟩ : BufTy).Contents (Elt F) → (⟨S32768x1, .i32⟩ : BufTy).Contents (Elt F) → (⟨S2048x32768, .f32⟩ : BufTy).Contents (Elt F)),
    unary main_v13 main_v28 ((extractStridedSlice S32768x1 ![0, 0] · slices_S32768x4_S32768x1_0_0) : (⟨S32768x4, .f32⟩ : BufTy).Contents (Elt F) → (⟨S32768x1, .f32⟩ : BufTy).Contents (Elt F)),
    reshape main_v28 main_v29 rfl shapeCasts_S32768x1_S32768,
    unary main_v13 main_v30 ((extractStridedSlice S32768x1 ![0, 1] · slices_S32768x4_S32768x1_0_1) : (⟨S32768x4, .f32⟩ : BufTy).Contents (Elt F) → (⟨S32768x1, .f32⟩ : BufTy).Contents (Elt F)),
    reshape main_v30 main_v31 rfl shapeCasts_S32768x1_S32768,
    unary main_v13 main_v32 ((extractStridedSlice S32768x1 ![0, 2] · slices_S32768x4_S32768x1_0_2) : (⟨S32768x4, .f32⟩ : BufTy).Contents (Elt F) → (⟨S32768x1, .f32⟩ : BufTy).Contents (Elt F)),
    reshape main_v32 main_v33 rfl shapeCasts_S32768x1_S32768,
    unary main_v13 main_v34 ((extractStridedSlice S32768x1 ![0, 3] · slices_S32768x4_S32768x1_0_3) : (⟨S32768x4, .f32⟩ : BufTy).Contents (Elt F) → (⟨S32768x1, .f32⟩ : BufTy).Contents (Elt F)),
    reshape main_v34 main_v35 rfl shapeCasts_S32768x1_S32768,
    unary main_v31 main_v36 (broadcastInDim S1x32768 ![1] bcast_S32768_S1x32768_1 : (⟨S32768, .f32⟩ : BufTy).Contents (Elt F) → (⟨S1x32768, .f32⟩ : BufTy).Contents (Elt F)),
    unary main_v36 main_v37 (broadcastInDim S2048x32768 ![0, 1] bcast_S1x32768_S2048x32768_0_1 : (⟨S1x32768, .f32⟩ : BufTy).Contents (Elt F) → (⟨S2048x32768, .f32⟩ : BufTy).Contents (Elt F)),
    binary main_v37 main_v20 main_v38 (mulf : (⟨S2048x32768, .f32⟩ : BufTy).Contents (Elt F) → (⟨S2048x32768, .f32⟩ : BufTy).Contents (Elt F) → (⟨S2048x32768, .f32⟩ : BufTy).Contents (Elt F)),
    unary main_v29 main_v39 (broadcastInDim S1x32768 ![1] bcast_S32768_S1x32768_1 : (⟨S32768, .f32⟩ : BufTy).Contents (Elt F) → (⟨S1x32768, .f32⟩ : BufTy).Contents (Elt F)),
    unary main_v39 main_v40 (broadcastInDim S2048x32768 ![0, 1] bcast_S1x32768_S2048x32768_0_1 : (⟨S1x32768, .f32⟩ : BufTy).Contents (Elt F) → (⟨S2048x32768, .f32⟩ : BufTy).Contents (Elt F)),
    binary main_v40 main_v38 main_v41 (addf : (⟨S2048x32768, .f32⟩ : BufTy).Contents (Elt F) → (⟨S2048x32768, .f32⟩ : BufTy).Contents (Elt F) → (⟨S2048x32768, .f32⟩ : BufTy).Contents (Elt F)),
    unary main_v33 main_v42 (broadcastInDim S1x32768 ![1] bcast_S32768_S1x32768_1 : (⟨S32768, .f32⟩ : BufTy).Contents (Elt F) → (⟨S1x32768, .f32⟩ : BufTy).Contents (Elt F)),
    unary main_v42 main_v43 (broadcastInDim S2048x32768 ![0, 1] bcast_S1x32768_S2048x32768_0_1 : (⟨S1x32768, .f32⟩ : BufTy).Contents (Elt F) → (⟨S2048x32768, .f32⟩ : BufTy).Contents (Elt F)),
    binary main_v43 main_v27 main_v44 (mulf : (⟨S2048x32768, .f32⟩ : BufTy).Contents (Elt F) → (⟨S2048x32768, .f32⟩ : BufTy).Contents (Elt F) → (⟨S2048x32768, .f32⟩ : BufTy).Contents (Elt F)),
    binary main_v41 main_v44 main_v45 (addf : (⟨S2048x32768, .f32⟩ : BufTy).Contents (Elt F) → (⟨S2048x32768, .f32⟩ : BufTy).Contents (Elt F) → (⟨S2048x32768, .f32⟩ : BufTy).Contents (Elt F)),
    binary main_v20 main_v27 main_v46 (mulf : (⟨S2048x32768, .f32⟩ : BufTy).Contents (Elt F) → (⟨S2048x32768, .f32⟩ : BufTy).Contents (Elt F) → (⟨S2048x32768, .f32⟩ : BufTy).Contents (Elt F)),
    unary main_v35 main_v47 (broadcastInDim S1x32768 ![1] bcast_S32768_S1x32768_1 : (⟨S32768, .f32⟩ : BufTy).Contents (Elt F) → (⟨S1x32768, .f32⟩ : BufTy).Contents (Elt F)),
    unary main_v47 main_v48 (broadcastInDim S2048x32768 ![0, 1] bcast_S1x32768_S2048x32768_0_1 : (⟨S1x32768, .f32⟩ : BufTy).Contents (Elt F) → (⟨S2048x32768, .f32⟩ : BufTy).Contents (Elt F)),
    binary main_v48 main_v46 main_v49 (mulf : (⟨S2048x32768, .f32⟩ : BufTy).Contents (Elt F) → (⟨S2048x32768, .f32⟩ : BufTy).Contents (Elt F) → (⟨S2048x32768, .f32⟩ : BufTy).Contents (Elt F)),
    binary main_v45 main_v49 main_v50 (addf : (⟨S2048x32768, .f32⟩ : BufTy).Contents (Elt F) → (⟨S2048x32768, .f32⟩ : BufTy).Contents (Elt F) → (⟨S2048x32768, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., binary_bufs_sub ..⟩

set_option maxRecDepth 8192 in
set_option maxHeartbeats 4000000 in
/-- Every weakly fair execution of @main terminates with the result buffer at `res` of the argument arrays as
    launched, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = res (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v50).trans (by after_results_simp <;> rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefRun

end
-- ==== Proof.LibMaskAll.lean ====
/-
  General facts about integer masks and wrapped indices, independent of any program.

  * `Host.reduce_andi_of_all`: a reduction by `and` of an i1 array all of whose elements are 1, from the initial value 1,
    is 1 at every result index (the converse direction of reading a printed `jnp.all`).
  * `wrap_toInt`: NumPy's index wrap on a 32-bit word. For a signed word v with -n ≤ v < n (n a small positive count), the
    word `if v < 0 then v + n else v` reads, signed, as a number in [0, n - 1].
-/
import Idealize.ShloMosaic.Lib.ReduceAll

namespace Idealize.ShloMosaic

namespace IntOp

/-- A left fold by `and` from 1 over words that are all 1 is 1. -/
theorem foldl_andi_of_all {ι : Type} (f : ι → BitVec 1) :
    ∀ (l : List ι), (∀ n ∈ l, f n = 1#1) → l.foldl (fun r n => andi r (f n)) 1#1 = 1#1
  | [], _ => rfl
  | a :: l, h => by
    have ha : f a = 1#1 := h a (List.mem_cons_self ..)
    have e : andi (1#1) (f a) = 1#1 := by rw [ha]; decide
    rw [List.foldl_cons, e]
    exact foldl_andi_of_all f l fun n hn => h n (List.mem_cons_of_mem _ hn)

end IntOp

namespace Host

variable {s t u : Shape} {axes : List (Fin s.rank)}

/-- A `stablehlo.reduce` by `and`, from an initial value 1, of an array whose every element is 1, is 1 everywhere. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl, hinit]
  exact IntOp.foldl_andi_of_all x _ fun i _ => hx i

end Host

/-- NumPy's wrap of a possibly negative index, on 32-bit words: with -n ≤ v < n signed and n below 2³⁰, the word
    `v + n` (when v is negative) or `v` (otherwise) is, signed, in [0, n - 1]. -/
theorem wrap_toInt (v : BitVec 32) (n : Nat) (hn : n < 2 ^ 30) (hlo : -(n : Int) ≤ v.toInt) (hhi : v.toInt < (n : Int)) :
    0 ≤ (if v.toInt < 0 then v + BitVec.ofNat 32 n else v).toInt ∧ (if v.toInt < 0 then v + BitVec.ofNat 32 n else v).toInt ≤ (n : Int) - 1 := by
  by_cases hneg : v.toInt < 0
  · rw [if_pos hneg]
    have hadd : (v + BitVec.ofNat 32 n).toInt = v.toInt + n := by
      rw [BitVec.toInt_add]
      have hnI : (BitVec.ofNat 32 n).toInt = n := by
        rw [BitVec.toInt_eq_msb_cond, BitVec.msb_eq_false_iff_two_mul_lt.mpr (by simp [BitVec.toNat_ofNat]; omega)]
        simp [BitVec.toNat_ofNat]; omega
      rw [hnI]
      apply Int.bmod_eq_of_le <;> omega
    rw [hadd]; omega
  · rw [if_neg hneg]; omega

end Idealize.ShloMosaic
-- ==== Proof.Mask.lean ====
/-
  Under the index range the fill never shows.  If every entry i of an index vector satisfies -32768 ≤ i < 32768, its
  wrap (i + 32768 for a negative i, else i) lies in [0, 32767] on every lane, so the in-range mask of jnp.take's fill mode
  is 1 everywhere and the take in fill mode IS the plain take: no lane receives the fill value.
-/
import proofs.«416665_j86277303042366_1_alg».proof.Proof.KHost
import proofs.«416665_j86277303042366_1_alg».proof.Proof.LibMaskAll
import Idealize.ShloMosaic.Lib.ValueIdx

noncomputable section

namespace Cert.KernelIdeal.KHost

open Cert.KernelIdeal Cert.KernelIdeal.Gen Idealize.ShloMosaic Idealize.ShloMosaic.ValueIdx

variable {F : FTy → Type} [FloatOps F]

/-- One lane: for a signed word v in [-32768, 32768) the wrapped word passes the test 0 ≤ · ≤ 32767. -/
theorem wrap_lane (v : BitVec 32) (hlo : (-32768 : Int) ≤ v.toInt) (hhi : v.toInt < 32768) :
    IntOp.andi (IntOp.cmpi .sge (Scalar.select (IntOp.cmpi .slt v 0#32) (IntOp.addi v 32768#32) v) 0#32)
      (IntOp.cmpi .sle (Scalar.select (IntOp.cmpi .slt v 0#32) (IntOp.addi v 32768#32) v) 32767#32) = 1#1 := by
  have z : (0#32 : BitVec 32).toInt = 0 := by decide
  have t : (32767#32 : BitVec 32).toInt = 32767 := by decide
  have key := wrap_toInt v 32768 (by norm_num) (by simpa using hlo) (by simpa using hhi)
  have hsel : Scalar.select (IntOp.cmpi .slt v 0#32) (IntOp.addi v 32768#32) v
      = if v.toInt < 0 then v + BitVec.ofNat 32 32768 else v := by
    by_cases hneg : v.toInt < 0
    · have h1 : IntOp.cmpi .slt v 0#32 = 1#1 := IntOp.cmpi_slt.2 (by rw [z]; exact hneg)
      rw [h1, if_pos hneg, select_one]; rfl
    · have h0 : IntOp.cmpi .slt v 0#32 = 0#1 :=
        eq_zero_of_ne_one fun h => hneg (by have := IntOp.cmpi_slt.1 h; rw [z] at this; exact this)
      rw [h0, if_neg hneg, select_zero]
  rw [hsel]
  refine IntOp.andi_eq_one.2 ⟨IntOp.cmpi_sge.2 (by rw [z]; exact key.1), IntOp.cmpi_sle.2 (by rw [t]; have := key.2; omega)⟩

/-- The in-range mask is 1 at every index when the index vector is in range. -/
theorem inrange_one (idx : IVec S32768 32)
    (h : ∀ i : S32768.Idx, (-32768 : Int) ≤ (idx i).toInt ∧ (idx i).toInt < 32768) (j : S2048x32768.Idx) :
    inrange idx j = 1#1 := by
  unfold inrange
  unfold broadcastInDim
  refine Host.reduce_andi_of_all _ _ _ _ rfl (fun i => ?_) _
  exact wrap_lane _ (h _).1 (h _).2

/-- So the take in fill mode is the plain take. -/
theorem takeFill_eq_take (x : FVec F S2048x32768 .f32) (idx : IVec S32768 32)
    (h : ∀ i : S32768.Idx, (-32768 : Int) ≤ (idx i).toInt ∧ (idx i).toInt < 32768) :
    takeFill x idx = take x idx := by
  funext j
  unfold takeFill
  rw [select_apply, inrange_one idx h j, select_one]

end Cert.KernelIdeal.KHost

end
-- ==== Proof.PreDecode.lean ====
/-
  The precondition, read back.  Beside the finiteness of the two float inputs it says of each index vector that every
  entry i satisfies -32768 ≤ i < 32768 (signed): i is a valid NumPy index, counting from the front or from the end, into
  an axis of extent 32768.  The printed predicate is a conjunction of four `jnp.all`s; this module extracts the two about
  the index vectors, lane by lane.
-/
import proofs.«416665_j86277303042366_1_alg».proof.Proof.Gen.Pre_finite_inputs
import Idealize.ShloMosaic.Lib.ReduceAll
import Idealize.ShloMosaic.Lib.ValueIdx

noncomputable section

namespace Cert.Pre_finite_inputs.Decode

open Cert.Pre_finite_inputs Cert.Pre_finite_inputs.Gen Idealize.ShloMosaic Idealize.ShloMosaic.ValueIdx

variable {F : FTy → Type} [FloatOps F]

/-- The rank-0 shape has one index. -/
instance : Subsingleton S_.Idx := ⟨fun a b => funext fun d => d.elim0⟩

/-- Every entry of an index vector is a valid (possibly negative) index into an axis of extent 32768. -/
def InRange (idx : IVec S32768 32) : Prop :=
  ∀ i : S32768.Idx, (-32768 : Int) ≤ (idx i).toInt ∧ (idx i).toInt < 32768

/-- One lane of a range test `(v ≥ -32768) & (v < 32768)` that came out 1. -/
theorem lane_range (v : BitVec 32)
    (h : IntOp.andi (IntOp.cmpi .sge v 4294934528#32) (IntOp.cmpi .slt v 32768#32) = 1#1) :
    (-32768 : Int) ≤ v.toInt ∧ v.toInt < 32768 := by
  obtain ⟨h1, h2⟩ := IntOp.andi_eq_one.1 h
  have a1 := IntOp.cmpi_sge.1 h1
  have a2 := IntOp.cmpi_slt.1 h2
  have e1 : (4294934528#32 : BitVec 32).toInt = -32768 := by decide
  have e2 : (32768#32 : BitVec 32).toInt = 32768 := by decide
  rw [e1] at a1; rw [e2] at a2
  exact ⟨a1, a2⟩

/-- THE PRECONDITION DECODED: both index vectors are in range. -/
theorem idx_ranges (x : FVec F S2048x32768 .f32) (ia ib : IVec S32768 32) (wt : FVec F S32768x16 .f32)
    (h : fn (F := F) x ia ib wt = fun _ => 1#1) : InRange ia ∧ InRange ib := by
  have e := congrFun h ix0
  unfold fn fn_part1 at e
  dsimp only at e
  obtain ⟨e1, hb⟩ := IntOp.andi_eq_one.1 e
  obtain ⟨-, ha⟩ := IntOp.andi_eq_one.1 e1
  refine ⟨fun i => ?_, fun i => ?_⟩
  · exact lane_range _ (Host.reduce_andi_all _ _ _ _ ix0 ha i)
  · exact lane_range _ (Host.reduce_andi_all _ _ _ _ ix0 hb i)

end Cert.Pre_finite_inputs.Decode

end
-- ==== Proof.LibLaneCoef.lean ====
/-
  General layout reads, independent of any program: a column of an [N, 4] coefficient matrix carried to the lanes of a
  [B, N] rectangle, read at an index.

  * `shapeCast_a1_a_apply`: an [a, 1] column cast to a vector [a] reads, at i, the column at (i, 0).
  * `bcast_lane_apply`: a vector over the lanes laid along every row of a [B, N] rectangle (the printed pair of broadcasts
    [N] → [1, N] → [B, N]) reads, at (p, q), the vector at q.
  * `lane_col_apply`: column k of an [N, 4] matrix, sliced out ([N, 1]), cast to a vector ([N]) and laid along the rows of
    a [B, N] rectangle, reads at (p, q) the matrix at (q, k).
-/
import Idealize.ShloMosaic.Lib.ValueIdx
import Idealize.ShloMosaic.Lib.ValueLayout
import Idealize.ShloMosaic.Lib.Pipeline.Value

namespace Idealize.ShloMosaic.ValueIdx

variable {α : Type}

/-- An [a, 1] column cast to a vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector over the lanes laid along every row of a [B, N] rectangle reads, at `(p, q)`, the vector at `q`. -/
theorem bcast_lane_apply {B N : ℕ} (h₁ : (⟨1, ![N]⟩ : Shape).BroadcastsInDim ⟨2, ![1, N]⟩ ![1])
    (h₂ : (⟨2, ![1, N]⟩ : Shape).BroadcastsInDim ⟨2, ![B, N]⟩ ![0, 1]) (v : (⟨1, ![N]⟩ : Shape).Idx → α) (p : Fin B) (q : Fin N) :
    broadcastInDim ⟨2, ![B, N]⟩ ![0, 1] h₂ (broadcastInDim ⟨2, ![1, N]⟩ ![1] h₁ v) (ix2 p q) = v (ix1 q) := by
  have hq := q.isLt
  refine (broadcastInDim_apply _ h₂ _ (ix2 p q) (ix2 (0 : Fin 1) q) (fun a => ?_)).trans ?_
  · match a with
    | ⟨0, _⟩ => show (0 : ℕ) = if (1 : ℕ) = 1 then 0 else p.val; rw [if_pos rfl]
    | ⟨1, _⟩ => show q.val = if N = 1 then 0 else q.val; split <;> omega
  · refine broadcastInDim_apply _ h₁ _ (ix2 (0 : Fin 1) q) (ix1 q) (fun a => ?_)
    match a with
    | ⟨0, _⟩ => show q.val = if N = 1 then 0 else q.val; split <;> omega

/-- Column `k` of an [N, 4] matrix, cut out, cast to a vector over the lanes and laid along every row of a [B, N] rectangle,
    reads at `(p, q)` the matrix at `(q, k)`. -/
theorem lane_col_apply {B N : ℕ} (k : Fin 4) (cf : (⟨2, ![N, 4]⟩ : Shape).Idx → α)
    (hs : (⟨2, ![N, 4]⟩ : Shape).Slices ![0, k.val] ⟨2, ![N, 1]⟩) (hc : (⟨2, ![N, 1]⟩ : Shape).ShapeCasts ⟨1, ![N]⟩)
    (h₁ : (⟨1, ![N]⟩ : Shape).BroadcastsInDim ⟨2, ![1, N]⟩ ![1]) (h₂ : (⟨2, ![1, N]⟩ : Shape).BroadcastsInDim ⟨2, ![B, N]⟩ ![0, 1])
    (p : Fin B) (q : Fin N) :
    broadcastInDim ⟨2, ![B, N]⟩ ![0, 1] h₂ (broadcastInDim ⟨2, ![1, N]⟩ ![1] h₁
      (shapeCast ⟨1, ![N]⟩ (extractStridedSlice ⟨2, ![N, 1]⟩ ![0, k.val] cf hs) hc)) (ix2 p q) = cf (ix2 q k) := by
  rw [bcast_lane_apply, shapeCast_a1_a_apply]
  exact slice2_axis1_apply k.val cf hs q (0 : Fin 1) k (by simp)

end Idealize.ShloMosaic.ValueIdx
-- ==== Proof.Bridge.lean ====
/-
  The two programs' host stages are the same functions, and the kernel's polynomial over the transposed coefficients is
  the reference's combination.

  * Both programs compute the gate coefficients (softmax of the weights times the gate table) and the plain take by the
    same operations: `coef` and `take` of the two are one function each.
  * The kernel reads coefficient k of a lane from row k of the TRANSPOSED [4, 32768] array; the reference cuts column k
    out of the [32768, 4] matrix, casts it to a vector over the lanes and lays it along the batch rows.  Both read the
    matrix at (lane, k), so the polynomial c₀ + c₁·a + c₂·b + c₃·(a·b) is the same at every index, the four products and
    three sums in the same order: no law of arithmetic is needed, only where each coefficient is read.
-/
import proofs.«416665_j86277303042366_1_alg».proof.Proof.KHost
import proofs.«416665_j86277303042366_1_alg».proof.Proof.RefRun
import proofs.«416665_j86277303042366_1_alg».proof.Proof.GatePoly
import proofs.«416665_j86277303042366_1_alg».proof.Proof.LibLaneCoef
import Idealize.ShloMosaic.Lib.ValueLayout

noncomputable section

namespace Cert.Bridge

open Idealize.ShloMosaic Idealize.ShloMosaic.ValueIdx Cert.GatePoly

variable {F : FTy → Type} [FloatOps F]

/-- The gate coefficients are computed by the same operations in both programs. -/
theorem coef_eq (wt : FVec F Cert.KernelIdeal.S32768x16 .f32) :
    Cert.KernelIdeal.KHost.coef wt = Cert.ReferenceIdeal.RefRun.coef wt := rfl

/-- So is the plain take. -/
theorem take_eq (x : FVec F Cert.KernelIdeal.S2048x32768 .f32) (idx : IVec Cert.KernelIdeal.S32768 32) :
    Cert.KernelIdeal.KHost.take x idx = Cert.ReferenceIdeal.RefRun.take x idx := rfl

/-- Row k of the transposed coefficients at a lane is column k of the matrix laid along the batch rows, at any index of
    that lane. -/
theorem coef_read (cf : FVec F Cert.ReferenceIdeal.S32768x4 .f32) (k : Fin 4)
    (hs : Cert.ReferenceIdeal.S32768x4.Slices ![0, k.val] Cert.ReferenceIdeal.S32768x1) (p : Fin 2048) (q : Fin 32768) :
    transpose Cert.KernelIdeal.S4x32768 [1, 0] cf Cert.KernelIdeal.Gen.transposes_S32768x4_S4x32768_1_0 (crow k (ix2 p q))
      = broadcastInDim Cert.ReferenceIdeal.S2048x32768 ![0, 1] Cert.ReferenceIdeal.Gen.bcast_S1x32768_S2048x32768_0_1
          (broadcastInDim Cert.ReferenceIdeal.S1x32768 ![1] Cert.ReferenceIdeal.Gen.bcast_S32768_S1x32768_1
            (shapeCast Cert.ReferenceIdeal.S32768 (extractStridedSlice Cert.ReferenceIdeal.S32768x1 ![0, k.val] cf hs)
              Cert.ReferenceIdeal.Gen.shapeCasts_S32768x1_S32768)) (ix2 p q) :=
  (transpose_ix2_apply cf _ k q).trans (lane_col_apply k cf hs _ _ _ p q).symm

/-- THE BRIDGE: the kernel's polynomial over the transposed coefficients is the reference's combination. -/
theorem poly_eq_combine (cf : FVec F Cert.ReferenceIdeal.S32768x4 .f32) (a b : FVec F Cert.ReferenceIdeal.S2048x32768 .f32) :
    lanePoly (transpose Cert.KernelIdeal.S4x32768 [1, 0] cf Cert.KernelIdeal.Gen.transposes_S32768x4_S4x32768_1_0) a b
      = Cert.ReferenceIdeal.RefRun.combine cf a b := by
  funext i
  obtain ⟨p, q, rfl⟩ : ∃ (p : Fin 2048) (q : Fin 32768), i = ix2 p q := ⟨i 0, i 1, eq_ix2 i⟩
  unfold lanePoly
  rw [coef_read cf 0 Cert.ReferenceIdeal.Gen.slices_S32768x4_S32768x1_0_0 p q,
    coef_read cf 1 Cert.ReferenceIdeal.Gen.slices_S32768x4_S32768x1_0_1 p q,
    coef_read cf 2 Cert.ReferenceIdeal.Gen.slices_S32768x4_S32768x1_0_2 p q,
    coef_read cf 3 Cert.ReferenceIdeal.Gen.slices_S32768x4_S32768x1_0_3 p q]
  rfl

end Cert.Bridge

end
-- ==== Proof.lean ====
/-
  Kernel: out = c₀ + c₁·a + c₂·b + c₃·(a·b) over [2048, 32768], where a = x[:, idx_a], b = x[:, idx_b] (jnp.take, fill mode)
  and (c₀, c₁, c₂, c₃) = softmax(weights) · gate, the 16 × 4 table of gate polynomials; the Pallas call computes the
  polynomial on 64 column blocks from the transposed coefficients.  Reference: the same polynomial with a = x[..., idx_a],
  b = x[..., idx_b] (plain indexing) and the coefficient columns broadcast along the batch.

  The two differ in ONE place: the take in fill mode writes a fill value on a lane whose index, after NumPy's wrap of a
  negative index, falls outside [0, 32767], where plain indexing clamps.  The precondition (finite float inputs, and every
  index i with -32768 ≤ i < 32768, the indices valid for an axis of extent 32768) excludes exactly those lanes: under it the
  in-range mask is all ones and both takes are the same gather.  The coefficients are computed by the same host operations
  in both programs, and each coefficient is read from the same matrix entry (row k of the transpose at a lane against
  column k laid along the batch), so the results agree index by index with no algebra on the extended reals: the three sums
  and four products stand in the same order on both sides.

  Frames: the kernel's two frames are the generated ones; the reference's is its run (sixty host operations composed) with
  the result dropped.  The idealization rewrote nothing, so `preserves` is trivial.
-/
import proofs.«416665_j86277303042366_1_alg».proof.Defs
import proofs.«416665_j86277303042366_1_alg».proof.Proof.Gen.Kernel
import proofs.«416665_j86277303042366_1_alg».proof.Proof.Gen.Kernel.Skeleton
import proofs.«416665_j86277303042366_1_alg».proof.Proof.Gen.Kernel.Launch
import proofs.«416665_j86277303042366_1_alg».proof.Proof.Gen.Kernel.Points
import proofs.«416665_j86277303042366_1_alg».proof.Proof.Gen.Kernel.Frame
import proofs.«416665_j86277303042366_1_alg».proof.Proof.Gen.KernelIdeal
import proofs.«416665_j86277303042366_1_alg».proof.Proof.Gen.KernelIdeal.Skeleton
import proofs.«416665_j86277303042366_1_alg».proof.Proof.Gen.KernelIdeal.Launch
import proofs.«416665_j86277303042366_1_alg».proof.Proof.Gen.KernelIdeal.Points
import proofs.«416665_j86277303042366_1_alg».proof.Proof.Gen.KernelIdeal.Frame
import proofs.«416665_j86277303042366_1_alg».proof.Proof.Gen.ReferenceIdeal
import proofs.«416665_j86277303042366_1_alg».proof.Proof.Gen.Pre_finite_inputs
import proofs.«416665_j86277303042366_1_alg».proof.Proof.KernelValue
import proofs.«416665_j86277303042366_1_alg».proof.Proof.RefRun
import proofs.«416665_j86277303042366_1_alg».proof.Proof.Mask
import proofs.«416665_j86277303042366_1_alg».proof.Proof.PreDecode
import proofs.«416665_j86277303042366_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end at the reference's function of the (agreeing) arguments: on the kernel's side the fill never shows under
    the index range, the host stages coincide, and the polynomial reads each coefficient where the reference does. -/
theorem algebraic : Cert.algebraic_KernelIdeal_ReferenceIdeal := by
  intro m ρ m' ρ' hpre hagree
  refine ⟨fun c => Cert.ReferenceIdeal.RefRun.res (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.KValue.run (F := Ideal) m ρ)
    obtain ⟨ha, hb⟩ := Cert.Pre_finite_inputs.Decode.idx_ranges _ _ _ _ (hpre c)
    rw [Cert.KernelIdeal.KHost.takeFill_eq_take _ _ ha, Cert.KernelIdeal.KHost.takeFill_eq_take _ _ hb,
      Cert.Bridge.coef_eq, Cert.Bridge.take_eq, Cert.Bridge.take_eq, Cert.Bridge.poly_eq_combine]
    rfl
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
